-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x256 : Shape := ⟨2, ![128, 256]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128 .f32) (main_arg7 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S524288x128 .f32) (main_arg1 : FVec F S524288x128 .f32) (main_arg2 : FVec F S128x256 .f32) (main_arg3 : FVec F S128x256 .f32) (main_arg4 : FVec F S128 .f32) (main_arg5 : FVec F S128 .f32) (main_arg6 : FVec F S128 .f32) (main_arg7 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_v13 main_v16
-- ==== Kernel.lean ====
abbrev S524288x128 : Shape := ⟨2, ![524288, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 21
  | .vmem => 14
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S128x256, .f32⟩
  | .hbm, ⟨3, _⟩ => ⟨S128x256, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .bf16⟩
  | .hbm, ⟨10, _⟩ => ⟨S128x128, .f32⟩
  | .hbm, ⟨11, _⟩ => ⟨S128x128, .bf16⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .bf16⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S524288x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S128x256_S128x128_0_0 : S128x256.Slices ![0, 0] S128x128
  bitsLt_bf16_f32 : FTy.bits .bf16 < FTy.bits .f32
  slices_S128x256_S128x128_0_128 : S128x256.Slices ![0, 128] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S524288x128.size a
  hwx0_0 : ∀ i : grid0.Coords, EltTy.bits .f32 = 32 ∨ (Rect.block (s := S524288x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S524288x128.size a
  hwx0_1 : ∀ i : grid0.Coords, EltTy.bits .f32 = 32 ∨ (Rect.block (s := S524288x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S524288x128.size a
  hwx0_10 : ∀ i : grid0.Coords, EltTy.bits .f32 = 32 ∨ (Rect.block (s := S524288x128) S2048x128.size (cc0_transform_10 i) (hinb0_10 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S2048x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x256 : Shape := ⟨2, ![128, 256]⟩
abbrev S128 : Shape := ⟨1, ![128]⟩
abbrev S524288x256 : Shape := ⟨2, ![524288, 256]⟩
abbrev S1x128 : Shape := ⟨2, ![1, 128]⟩
abbrev S_ : Shape := ⟨0, ![]⟩
abbrev S524288 : Shape := ⟨1, ![524288]⟩
abbrev S524288x1 : Shape := ⟨2, ![524288, 1]⟩

abbrev nBuf : Space → Nat
  | .hbm => 61
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S128x256, .f32⟩
  | .hbm, ⟨3, _⟩ => ⟨S128x256, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S524288x256, .f32⟩
  | .hbm, ⟨9, _⟩ => ⟨S524288x128, .f32⟩
  | .hbm, ⟨10, _⟩ => ⟨S1x128, .f32⟩
  | .hbm, ⟨11, _⟩ => ⟨S524288x128, .f32⟩
  | .hbm, ⟨12, _⟩ => ⟨S524288x128, .f32⟩
  | .hbm, ⟨13, _⟩ => ⟨S524288x128, .f32⟩
  | .hbm, ⟨14, _⟩ => ⟨S524288x128, .f32⟩
  | .hbm, ⟨15, _⟩ => ⟨S_, .f32⟩
  | .hbm, ⟨16, _⟩ => ⟨S524288x128, .f32⟩
  | .hbm, ⟨17, _⟩ => ⟨S524288x128, .f32⟩
  | .hbm, ⟨18, _⟩ => ⟨S_, .f32⟩
  | .hbm, ⟨19, _⟩ => ⟨S524288x128, .f32⟩
  | .hbm, ⟨20, _⟩ => ⟨S524288x128, .f32⟩
  | .hbm, ⟨21, _⟩ => ⟨S524288x128, .f32⟩
  | .hbm, ⟨22, _⟩ => ⟨S1x128, .f32⟩
  | .hbm, ⟨23, _⟩ => ⟨S524288x128, .f32⟩
  | .hbm, ⟨24, _⟩ => ⟨S524288x128, .f32⟩
  | .hbm, ⟨25, _⟩ => ⟨S524288x128, .f32⟩
  | .hbm, ⟨26, _⟩ => ⟨S524288x128, .f32⟩
  | .hbm, ⟨27, _⟩ => ⟨S_, .f32⟩
  | .hbm, ⟨28, _⟩ => ⟨S524288x128, .f32⟩
  | .hbm, ⟨29, _⟩ => ⟨S524288x128, .f32⟩
  | .hbm, ⟨30, _⟩ => ⟨S524288x128, .f32⟩
  | .hbm, ⟨31, _⟩ => ⟨S524288x128, .f32⟩
  | .hbm, ⟨32, _⟩ => ⟨S_, .f32⟩
  | .hbm, ⟨33, _⟩ => ⟨S524288, .f32⟩
  | .hbm, ⟨34, _⟩ => ⟨S524288x1, .f32⟩
  | .hbm, ⟨35, _⟩ => ⟨S_, .f32⟩
  | .hbm, ⟨36, _⟩ => ⟨S524288x1, .f32⟩
  | .hbm, ⟨37, _⟩ => ⟨S524288x1, .f32⟩
  | .hbm, ⟨38, _⟩ => ⟨S524288x128, .f32⟩
  | .hbm, ⟨39, _⟩ => ⟨S524288x128, .f32⟩
  | .hbm, ⟨40, _⟩ => ⟨S524288x128, .f32⟩
  | .hbm, ⟨41, _⟩ => ⟨S_, .f32⟩
  | .hbm, ⟨42, _⟩ => ⟨S524288, .f32⟩
  | .hbm, ⟨43, _⟩ => ⟨S524288x1, .f32⟩
  | .hbm, ⟨44, _⟩ => ⟨S_, .f32⟩
  | .hbm, ⟨45, _⟩ => ⟨S524288x1, .f32⟩
  | .hbm, ⟨46, _⟩ => ⟨S524288x1, .f32⟩
  | .hbm, ⟨47, _⟩ => ⟨S524288x128, .f32⟩
  | .hbm, ⟨48, _⟩ => ⟨S524288x128, .f32⟩
  | .hbm, ⟨49, _⟩ => ⟨S_, .f32⟩
  | .hbm, ⟨50, _⟩ => ⟨S524288x1, .f32⟩
  | .hbm, ⟨51, _⟩ => ⟨S524288x1, .f32⟩
  | .hbm, ⟨52, _⟩ => ⟨S524288x1, .f32⟩
  | .hbm, ⟨53, _⟩ => ⟨S524288x128, .f32⟩
  | .hbm, ⟨54, _⟩ => ⟨S524288x128, .f32⟩
  | .hbm, ⟨55, _⟩ => ⟨S1x128, .f32⟩
  | .hbm, ⟨56, _⟩ => ⟨S524288x128, .f32⟩
  | .hbm, ⟨57, _⟩ => ⟨S524288x128, .f32⟩
  | .hbm, ⟨58, _⟩ => ⟨S1x128, .f32⟩
  | .hbm, ⟨59, _⟩ => ⟨S524288x128, .f32⟩
  | .hbm, ⟨60, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  concatenates_S524288x128_S524288x128_S524288x256_d1 : Shape.Concatenates [S524288x128, S524288x128] S524288x256 1
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  reducesTo_S524288x128_S524288_d1 : S524288x128.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  dot_S524288x256_S128x256_S524288x128_1_1_0_0_n_n_wf : DotDims.WF S524288x256 S128x256 S524288x128 [1] [1] [0] [0] [] []

variable [Facts₀]

def dot_S524288x256_S128x256_S524288x128_1_1_0_0_n_n : DotDims S524288x256 S128x256 S524288x128 where
  lhsContracting := [1]
  rhsContracting := [1]
  lhsNonContracting := [0]
  rhsNonContracting := [0]
  lhsBatch := []
  rhsBatch := []
  wf := dot_S524288x256_S128x256_S524288x128_1_1_0_0_n_n_wf

class Facts : Prop extends Facts₀ where

variable [Facts]
-- ==== Proof.Spec.lean ====
/-
  The function both programs compute, on the extended reals, row by row.

  For a row of the batch, with `hr` and `xr` its 128 entries of `h` and of `x`, and an output feature `j`, the
  pre-activation of a gate with weight `W : [128, 256]` and bias `b : [128]` is the contraction of the concatenated
  row `[hr | xr]` (256 entries) with row `j` of `W`, plus `b j`. Written with the contraction split at `k = 128`
  it is `(∑ k < 128, hr k · W j k) + (∑ k < 128, xr k · W j (128 + k)) + b j` (`affineRow`, over the two halves of
  `W`'s row); the unsplit sum over 256 entries is the same number, because a finite sum over `Fin (128 + 128)` is the
  sum of its two halves in any commutative monoid (`affine_eq_concat`). No finiteness is used: only associativity
  and commutativity of `+`.

  The two pre-activations `z` (weight `W_a`) and `zg` (weight `W_g`) are mixed by
  `σ(zg) · tanh z + (1 - σ(zg)) · z`, and the mixed row (128 entries) is normalized: its mean is subtracted, the
  result is scaled by the reciprocal square root of the mean square deviation plus a small constant, then by
  `γ j`, and `β j` is added (`rowOut`). The logistic function is `1 / (1 + e^(-t))` on every extended real, so a
  program that spells it out with a negation, an exponential, a sum and a quotient computes the same
  (`logistic_spelled`).
-/
import Idealize.ShloMosaic.PureOps.Ideal
import Idealize.ShloMosaic.Lib.ValueIdx
import Idealize.ShloMosaic.Lib.IdealHost

noncomputable section

namespace Cert.Spec

open Idealize.ShloMosaic Idealize.ShloMosaic.ValueIdx

/-- A matrix and a vector of extended reals over literal extents. -/
abbrev Mat (a b : Nat) : Type := (⟨2, ![a, b]⟩ : Shape).Idx → EReal
abbrev Vect (a : Nat) : Type := (⟨1, ![a]⟩ : Shape).Idx → EReal

/-- The three float literals the two programs share: `1`, `128` and the variance offset. -/
def one : EReal := Ideal.ofBits .f32 0x3F800000#32
def n128 : EReal := Ideal.ofBits .f32 0x43000000#32
def eps : EReal := Ideal.ofBits .f32 0x3727C5AC#32

theorem one_eq : one = 1 := Ideal.ofBits_one_f32

/-! ## One row -/

/-- `[hr | xr]` against a row of a weight given by its two halves, the contraction split at `k = 128`, plus the bias. -/
def affineRow (xr hr wLo wHi : Fin 128 → EReal) (b : EReal) : EReal :=
  ((∑ k : Fin 128, hr k * wLo k) + ∑ k : Fin 128, xr k * wHi k) + b

/-- The mix of the two pre-activations. -/
def gated (zg z : EReal) : EReal := Ideal.logistic zg * Ideal.tanh z + (one - Ideal.logistic zg) * z

/-- The logistic function spelled with a negation, an exponential, a sum and a quotient. -/
theorem logistic_spelled (t : EReal) : Ideal.div one (one + Ideal.exp (-t)) = Ideal.logistic t := by
  rw [one_eq]; rfl

/-- The normalization of a row of 128 entries. -/
def mean (v : Fin 128 → EReal) : EReal := Ideal.div (∑ k : Fin 128, v k) n128
def centred (v : Fin 128 → EReal) (k : Fin 128) : EReal := v k - mean v
def meanSq (v : Fin 128 → EReal) : EReal := Ideal.div (∑ k : Fin 128, centred v k * centred v k) n128
def normed (v : Fin 128 → EReal) (g b : EReal) (j : Fin 128) : EReal :=
  centred v j * Ideal.rsqrt (meanSq v + eps) * g + b

/-- The mixed row, from the row's entries of `x` and `h`, the halves of the two weights (row `j` of a half is
    `w j`) and the two biases. -/
def mixedRow (xr hr : Fin 128 → EReal) (waLo waHi wgLo wgHi : Fin 128 → Fin 128 → EReal) (ba bg : Fin 128 → EReal)
    (k : Fin 128) : EReal :=
  gated (affineRow xr hr (wgLo k) (wgHi k) (bg k)) (affineRow xr hr (waLo k) (waHi k) (ba k))

/-- One row of the result at feature `j`. -/
def rowOut (xr hr : Fin 128 → EReal) (waLo waHi wgLo wgHi : Fin 128 → Fin 128 → EReal) (ba bg γ β : Fin 128 → EReal)
    (j : Fin 128) : EReal :=
  normed (mixedRow xr hr waLo waHi wgLo wgHi ba bg) (γ j) (β j) j

/-! ## The arrays -/

/-- The two halves of a `[128, 256]` weight: columns `0 … 127` and `128 … 255`. -/
def lo (W : Mat 128 256) (j k : Fin 128) : EReal := W (ix2 j (Fin.castAdd 128 k))
def hi (W : Mat 128 256) (j k : Fin 128) : EReal := W (ix2 j (Fin.natAdd 128 k))

/-- The result: entry `(r, j)` is `rowOut` of row `r` of `x` and of `h` at `j`. -/
def G (x h : Mat 524288 128) (Wa Wg : Mat 128 256) (ba bg γ β : Vect 128) : Mat 524288 128 := fun i =>
  rowOut (fun k => x (ix2 (i 0) k)) (fun k => h (ix2 (i 0) k)) (lo Wa) (hi Wa) (lo Wg) (hi Wg)
    (fun j => ba (ix1 j)) (fun j => bg (ix1 j)) (fun j => γ (ix1 j)) (fun j => β (ix1 j)) (i 1)

/-- The concatenated row `[hr | xr]`: entry `k` is `hr k` below 128 and `xr (k - 128)` from 128 on. -/
def concatRow (xr hr : Fin 128 → EReal) (k : Fin (128 + 128)) : EReal := Fin.addCases hr xr k

/-- The unsplit contraction over all 256 entries of the concatenated row is the split one. -/
theorem affine_eq_concat (xr hr : Fin 128 → EReal) (W : Mat 128 256) (j : Fin 128) (b : EReal) :
    (∑ k : Fin (128 + 128), concatRow xr hr k * W (ix2 j k)) + b = affineRow xr hr (lo W j) (hi W j) b := by
  unfold affineRow concatRow lo hi
  rw [Fin.sum_univ_add]
  simp only [Fin.addCases_left, Fin.addCases_right]

end Cert.Spec

end
-- ==== Proof.LibRowReduce.lean ====
/-
  Three readings at an index, general in the extents, for a body that reduces each row of a matrix and lays the result
  back along the rows (a keepdims row reduction): a column `[a, 1]` broadcast along the rows of `[a, b]`; an `[a]`
  array cast to the column `[a, 1]`; and, on the extended reals, the sum over axis 1 of an `[a, b]` matrix read at
  row `p` as the sum of that row's `b` entries.
-/
import Idealize.ShloMosaic.Lib.ValueIdx
import Idealize.ShloMosaic.Lib.ValueLayout
import Idealize.ShloMosaic.Lib.Pipeline.Value
import Idealize.ShloMosaic.PureOps.Ideal.Laws

namespace Idealize.ShloMosaic.ValueIdx

open Idealize.ShloMosaic

variable {α : Type}

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- On the extended reals the sum over axis 1 of an `[a, b]` matrix, read at row `p`, is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => ?_
  exact congrArg src (funext fun ax => Fin.ext (by match ax with | ⟨0, _⟩ => rfl | ⟨1, _⟩ => rfl))

end Idealize.ShloMosaic.ValueIdx
-- ==== Proof.KernelRow.lean ====
/-
  What the kernel body leaves in its output block, entry by entry, is `Cert.Spec.rowOut` of the blocks it loads.

  The body multiplies the `h` block by the transposed low half of each weight and the `x` block by the transposed
  high half, adds the two products and the bias row: at `(p, q)` that is the contraction of row `p` of `h` with row
  `q` of the low half plus that of row `p` of `x` with row `q` of the high half, plus the bias at `q`
  (`Cert.Spec.affineRow`; a change of float format is the identity on the extended reals). The mix is pointwise.
  The normalization sums each row of the block over its 128 entries, lays the quotient by 128 back along the row,
  and scales by the reciprocal square root, `γ` and `β`, the last two one row broadcast down the block.
-/
import proofs.«173921_j16801912062282_1_alg».proof.Proof.Gen.KernelIdeal.Value
import proofs.«173921_j16801912062282_1_alg».proof.Proof.Spec
import proofs.«173921_j16801912062282_1_alg».proof.Proof.LibRowReduce
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.TcCoe Idealize.ShloMosaic.ValueIdx Cert.Spec

/-! ## The block product at an index -/

theorem lhs_dot_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_dot_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_dot_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_dot_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A `[2048, 128] × [128, 128]` product into the zero accumulator, at `(p, q)`: row `p` of the left operand against
    column `q` of the right. -/
theorem matmul_zero_apply (L : FVec Ideal S2048x128 .bf16) (R : FVec Ideal S128x128 .bf16) (p : Fin 2048) (q : Fin 128) :
    matmul dot_S2048x128_S128x128_S2048x128_1_0_0_1_n_n none L R (constant S2048x128 .f32 0x00000000#32) (ix2 p q)
      = ∑ k : Fin 128, L (ix2 p k) * R (ix2 k q) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p q) ((ValueIdx.contrEquiv1 dot_S2048x128_S128x128_S2048x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2048x128_S128x128_S2048x128_1_0_0_1_n_n.rhsIdx (ix2 p q) ((ValueIdx.contrEquiv1 dot_S2048x128_S128x128_S2048x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The pointwise operations that have no library reading, at an index (definitional) -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl
theorem rsqrt_apply {s : Shape} {φ : FTy} (a : FVec Ideal s φ) (i : s.Idx) : rsqrt a i = Ideal.rsqrt (a i) := rfl

/-- The same product against a transposed `[128, 128]` matrix `W`: row `p` of the left operand against ROW `q` of `W`. -/
theorem matmulT_zero_apply (L : FVec Ideal S2048x128 .bf16) (W : FVec Ideal S128x128 .bf16) (h : S128x128.Transposes [1, 0] S128x128)
    (p : Fin 2048) (q : Fin 128) :
    matmul dot_S2048x128_S128x128_S2048x128_1_0_0_1_n_n none L (transpose S128x128 [1, 0] W h) (constant S2048x128 .f32 0x00000000#32) (ix2 p q)
      = ∑ k : Fin 128, L (ix2 p k) * W (ix2 q k) :=
  (matmul_zero_apply L _ p q).trans (Finset.sum_congr rfl fun k _ =>
    congrArg (L (ix2 p k) * ·) (transpose_ix2_apply (a := 128) (b := 128) W h k q))

/-! ## The two payloads -/

/-- The mixed block at `(p, q)`. -/
theorem mixed_apply (P0 P1 : Vec Ideal S2048x128 .f32) (P2 P3 P4 P5 : Vec Ideal S128x128 .bf16) (P6 P7 : Vec Ideal S1x128 .f32)
    (p : Fin 2048) (q : Fin 128) :
    k0_pay2 P0 P1 P2 P3 P4 P5 P6 P7 (ix2 p q)
      = mixedRow (fun k => P0 (ix2 p k)) (fun k => P1 (ix2 p k)) (fun j k => P2 (ix2 j k)) (fun j k => P3 (ix2 j k))
          (fun j k => P4 (ix2 j k)) (fun j k => P5 (ix2 j k)) (fun j => P6 (ix2 (0 : Fin 1) j)) (fun j => P7 (ix2 (0 : Fin 1) j)) q := by
  unfold k0_pay2
  simp only [addf_apply, mulf_apply, subf_apply, broadcast_apply, logistic_apply, tanh_apply,
    broadcastTo_1b_ab_apply, shapeCast_self]
  rw [matmulT_zero_apply, matmulT_zero_apply, matmulT_zero_apply, matmulT_zero_apply]
  rfl

/-! ## The keepdims row mean -/

/-- The sum of each row, as a column, over a constant: at row `p` the quotient of the row's sum. (The reduction's side
    conditions are hypotheses of the statement.) -/
theorem colmean_apply (v : FVec Ideal S2048x128 .f32) (h : S2048x128.Reduces [1] S2048) (hφ : FKind.Formats .f32)
    (hacc : (0x00000000#32 : BitVec 32) = FKind.add.neutral .f32 hφ) (sc : S2048.ShapeCasts S2048x1) (c : Ideal .f32)
    (p : Fin 2048) (u : Fin 1) :
    divf (shapeCast S2048x1 (multiReduction .add [1] S2048 v 0x00000000#32 h hφ hacc) sc) (broadcast S2048x1 c) (ix2 p u)
      = Ideal.div (∑ k : Fin 128, v (ix2 p k)) c :=
  congrArg (Ideal.div · c)
    ((shapeCast_a_a1_apply _ sc p u).trans (multiReduction_add_row (a := 2048) (b := 128) v _ h hφ hacc p))

/-- A block less its keepdims row mean, at `(p, k)`. -/
theorem centredBlock_apply (v : FVec Ideal S2048x128 .f32) (h : S2048x128.Reduces [1] S2048) (hφ : FKind.Formats .f32)
    (hacc : (0x00000000#32 : BitVec 32) = FKind.add.neutral .f32 hφ) (sc : S2048.ShapeCasts S2048x1)
    (bc : S2048x1.Broadcasts S2048x128) (c : Ideal .f32) (p : Fin 2048) (k : Fin 128) :
    subf v (broadcastTo S2048x128 (divf (shapeCast S2048x1 (multiReduction .add [1] S2048 v 0x00000000#32 h hφ hacc) sc)
        (broadcast S2048x1 c)) bc) (ix2 p k)
      = v (ix2 p k) - Ideal.div (∑ j : Fin 128, v (ix2 p j)) c :=
  congrArg (v (ix2 p k) - ·) ((broadcastTo_a1_ab_apply _ bc p k).trans (colmean_apply v h hφ hacc sc c p 0))

/-- The normalized block at `(p, q)`, from the mixed block `v` and the two parameter rows. -/
theorem normed_apply (v : FVec Ideal S2048x128 .f32) (g b : Vec Ideal S1x128 .f32) (p : Fin 2048) (q : Fin 128) :
    k0_pay1 v g b (ix2 p q) = normed (fun k => v (ix2 p k)) (g (ix2 (0 : Fin 1) q)) (b (ix2 (0 : Fin 1) q)) q := by
  unfold k0_pay1
  simp only [addf_apply, mulf_apply, subf_apply, divf_apply, broadcast_apply, rsqrt_apply, broadcastTo_1b_ab_apply,
    broadcastTo_a1_ab_apply, shapeCast_a_a1_apply, shapeCast_self]
  unfold normed centred meanSq mean
  refine congrArg₂ (· + ·) (congrArg₂ (· * ·) (congrArg₂ (· * ·) (congrArg₂ (· - ·) rfl (congrArg (Ideal.div · _) ?_))
    (congrArg Ideal.rsqrt (congrArg₂ (· + ·) (congrArg (Ideal.div · _) ?_) rfl))) rfl) rfl
  · exact multiReduction_add_row (a := 2048) (b := 128) v _ _ _ _ p
  · refine (multiReduction_add_row (a := 2048) (b := 128) _ _ _ _ _ p).trans (Finset.sum_congr rfl fun k _ => ?_)
    exact congrArg₂ (· * ·) (centredBlock_apply v _ _ _ _ _ _ p k) (centredBlock_apply v _ _ _ _ _ _ p k)

/-! ## The block after the body -/

theorem zero_offsets : (![0, 0] : Fin 2 → Nat) = fun _ => 0 := funext fun a => by fin_cases a <;> rfl

/-- What the body leaves in the output block, at `(p, q)`, from the ten blocks it loads. -/
theorem out_apply (x0 x1 : Vec Ideal S2048x128 .f32) (x2 x3 x4 x5 : Vec Ideal S128x128 .bf16) (x6 x7 x8 x9 : Vec Ideal S1x128 .f32)
    (p : Fin 2048) (q : Fin 128) :
    out0_10 x0 x1 x2 x3 x4 x5 x6 x7 x8 x9 (ix2 p q)
      = rowOut (fun k => x0 (ix2 p k)) (fun k => x1 (ix2 p k)) (fun j k => x2 (ix2 j k)) (fun j k => x3 (ix2 j k))
          (fun j k => x4 (ix2 j k)) (fun j k => x5 (ix2 j k)) (fun j => x6 (ix2 (0 : Fin 1) j)) (fun j => x7 (ix2 (0 : Fin 1) j))
          (fun j => x8 (ix2 (0 : Fin 1) j)) (fun j => x9 (ix2 (0 : Fin 1) j)) q := by
  unfold out0_10
  rw [View.canon_unit_zero zero_offsets]
  simp only [View.ld_unit_zero (S := S2048x128) zero_offsets, View.ld_unit_zero (S := S128x128) zero_offsets,
    View.ld_unit_zero (S := S1x128) zero_offsets]
  rw [normed_apply]
  simp only [mixed_apply]
  rfl

end Cert.KernelIdeal.RowValue

end
-- ==== Proof.KernelArray.lean ====
/-
  The kernel's result array, from what each grid point writes back.

  Grid point `t` (of 256) stages rows `2048 t … 2048 t + 2047` of `x` and of `h`, the four weight halves and the four
  parameter rows whole, and writes back rows `2048 t …` of the result. The weight halves are the host's slices of the
  `[128, 256]` weights at columns `0` and `128` (their change of float format is the identity on the extended reals),
  the parameter rows the host's `[128] → [1, 128]` reshapes. So what point `t` writes back is block `t` of
  `Cert.Spec.G` of the arguments (`flushed_eq`); the 256 blocks cover the 524288 rows (row `r` lies in block
  `r / 2048`), so the array ends at `G` (`final`).
  The steps from one point's block to the array (the decided index facts, the block a point writes read at a symbolic
  point, membership in a block, the cover) are those of a closed form over a grid of blocks.
-/
import proofs.«173921_j16801912062282_1_alg».proof.Proof.KernelRow
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx Cert.Spec
open Idealize.SL.Sem Idealize.ShloMosaic.StableHlo
open Idealize.ShloMosaic.Pipeline (Dat)

variable (m : (ℓ : Loc nD τ sig) → Buf (Elt Ideal) ℓ) (ρ : Dev nD → PrngReg)

/-! ## The arguments on core `c`, and the result as one function of them -/

abbrev argX (c : Dev nD) : Mat 524288 128 := m ((c : Thread nD τ).loc main_arg0)
abbrev argH (c : Dev nD) : Mat 524288 128 := m ((c : Thread nD τ).loc main_arg1)
abbrev argWa (c : Dev nD) : Mat 128 256 := m ((c : Thread nD τ).loc main_arg2)
abbrev argWg (c : Dev nD) : Mat 128 256 := m ((c : Thread nD τ).loc main_arg3)
abbrev argBa (c : Dev nD) : Vect 128 := m ((c : Thread nD τ).loc main_arg4)
abbrev argBg (c : Dev nD) : Vect 128 := m ((c : Thread nD τ).loc main_arg5)
abbrev argGamma (c : Dev nD) : Vect 128 := m ((c : Thread nD τ).loc main_arg6)
abbrev argBeta (c : Dev nD) : Vect 128 := m ((c : Thread nD τ).loc main_arg7)

abbrev result (c : Dev nD) : Mat 524288 128 :=
  G (argX m c) (argH m c) (argWa m c) (argWg m c) (argBa m c) (argBg m c) (argGamma m c) (argBeta m c)

/-! ## The index maps, decided over the 256 points -/

/-- The `x`, `h` and result windows are at block `t` of the rows at point `t`; every other window stays at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0 :=
  (by decide +kernel : ∀ t : Fin grid0.N, _)

/-- The array row under row `p` of point `t`'s block. -/
def rowOf (t : Fin cfg0.N) (p : Fin 2048) : Fin 524288 :=
  ⟨t.val * 2048 + p.val, by have h : t.val < 256 := lt_of_lt_of_eq t.isLt N_0; have := p.isLt; omega⟩

/-! ## The arrays the host wrote before the region -/

theorem main_v1_apply (c : Dev nD) (j k : Fin 128) : V m c main_v1 (ix2 j k) = lo (m ((c : Thread nD τ).loc main_arg2)) j k := by
  have e : @Eq (S128x128.Idx → EReal) (V m c main_v1)
      (truncf (F := Ideal) .bf16 (extractStridedSlice S128x128 ![0, 0] (argWa m c) Facts₀.slices_S128x256_S128x128_0_0) Facts₀.bitsLt_bf16_f32) := by
    dsimp only [Gen.V, Gen.hostOps0]; after_results
  refine (congrFun e (ix2 j k)).trans ?_
  show extractStridedSlice S128x128 ![0, 0] (argWa m c) Facts₀.slices_S128x256_S128x128_0_0 (ix2 j k) = _
  exact slice2_axis1_apply (n0 := 128) (n1 := 256) (m := 128) 0 _ _ j k (Fin.castAdd 128 k) (Nat.zero_add _).symm

theorem main_v3_apply (c : Dev nD) (j k : Fin 128) : V m c main_v3 (ix2 j k) = hi (m ((c : Thread nD τ).loc main_arg2)) j k := by
  have e : @Eq (S128x128.Idx → EReal) (V m c main_v3)
      (truncf (F := Ideal) .bf16 (extractStridedSlice S128x128 ![0, 128] (argWa m c) Facts₀.slices_S128x256_S128x128_0_128) Facts₀.bitsLt_bf16_f32) := by
    dsimp only [Gen.V, Gen.hostOps0]; after_results
  refine (congrFun e (ix2 j k)).trans ?_
  show extractStridedSlice S128x128 ![0, 128] (argWa m c) Facts₀.slices_S128x256_S128x128_0_128 (ix2 j k) = _
  exact slice2_axis1_apply (n0 := 128) (n1 := 256) (m := 128) 128 _ _ j k (Fin.natAdd 128 k) rfl

theorem main_v5_apply (c : Dev nD) (j k : Fin 128) : V m c main_v5 (ix2 j k) = lo (m ((c : Thread nD τ).loc main_arg3)) j k := by
  have e : @Eq (S128x128.Idx → EReal) (V m c main_v5)
      (truncf (F := Ideal) .bf16 (extractStridedSlice S128x128 ![0, 0] (argWg m c) Facts₀.slices_S128x256_S128x128_0_0) Facts₀.bitsLt_bf16_f32) := by
    dsimp only [Gen.V, Gen.hostOps0]; after_results
  refine (congrFun e (ix2 j k)).trans ?_
  show extractStridedSlice S128x128 ![0, 0] (argWg m c) Facts₀.slices_S128x256_S128x128_0_0 (ix2 j k) = _
  exact slice2_axis1_apply (n0 := 128) (n1 := 256) (m := 128) 0 _ _ j k (Fin.castAdd 128 k) (Nat.zero_add _).symm

theorem main_v7_apply (c : Dev nD) (j k : Fin 128) : V m c main_v7 (ix2 j k) = hi (m ((c : Thread nD τ).loc main_arg3)) j k := by
  have e : @Eq (S128x128.Idx → EReal) (V m c main_v7)
      (truncf (F := Ideal) .bf16 (extractStridedSlice S128x128 ![0, 128] (argWg m c) Facts₀.slices_S128x256_S128x128_0_128) Facts₀.bitsLt_bf16_f32) := by
    dsimp only [Gen.V, Gen.hostOps0]; after_results
  refine (congrFun e (ix2 j k)).trans ?_
  show extractStridedSlice S128x128 ![0, 128] (argWg m c) Facts₀.slices_S128x256_S128x128_0_128 (ix2 j k) = _
  exact slice2_axis1_apply (n0 := 128) (n1 := 256) (m := 128) 128 _ _ j k (Fin.natAdd 128 k) rfl

theorem main_v8_apply (c : Dev nD) (j : Fin 128) : V m c main_v8 (ix2 (0 : Fin 1) j) = m ((c : Thread nD τ).loc main_arg4) (ix1 j) := by
  have e : @Eq (S1x128.Idx → EReal) (V m c main_v8) (shapeCast S1x128 (argBa m c) Facts₀.shapeCasts_S128_S1x128) := by
    dsimp only [Gen.V, Gen.hostOps0]; after_results; rfl
  exact (congrFun e (ix2 (0 : Fin 1) j)).trans (shapeCast_a_1a_apply _ _ 0 j)

theorem main_v9_apply (c : Dev nD) (j : Fin 128) : V m c main_v9 (ix2 (0 : Fin 1) j) = m ((c : Thread nD τ).loc main_arg5) (ix1 j) := by
  have e : @Eq (S1x128.Idx → EReal) (V m c main_v9) (shapeCast S1x128 (argBg m c) Facts₀.shapeCasts_S128_S1x128) := by
    dsimp only [Gen.V, Gen.hostOps0]; after_results; rfl
  exact (congrFun e (ix2 (0 : Fin 1) j)).trans (shapeCast_a_1a_apply _ _ 0 j)

theorem main_v10_apply (c : Dev nD) (j : Fin 128) : V m c main_v10 (ix2 (0 : Fin 1) j) = m ((c : Thread nD τ).loc main_arg6) (ix1 j) := by
  have e : @Eq (S1x128.Idx → EReal) (V m c main_v10) (shapeCast S1x128 (argGamma m c) Facts₀.shapeCasts_S128_S1x128) := by
    dsimp only [Gen.V, Gen.hostOps0]; after_results; rfl
  exact (congrFun e (ix2 (0 : Fin 1) j)).trans (shapeCast_a_1a_apply _ _ 0 j)

theorem main_v11_apply (c : Dev nD) (j : Fin 128) : V m c main_v11 (ix2 (0 : Fin 1) j) = m ((c : Thread nD τ).loc main_arg7) (ix1 j) := by
  have e : @Eq (S1x128.Idx → EReal) (V m c main_v11) (shapeCast S1x128 (argBeta m c) Facts₀.shapeCasts_S128_S1x128) := by
    dsimp only [Gen.V, Gen.hostOps0]; after_results; rfl
  exact (congrFun e (ix2 (0 : Fin 1) j)).trans (shapeCast_a_1a_apply _ _ 0 j)

/-! ## Each input window's block at a point, over literal types, read at coordinates -/

abbrev blkX (c : Dev nD) (t : Fin cfg0.N) : Vec Ideal S2048x128 .f32 := iblk m c 0 t
abbrev blkH (c : Dev nD) (t : Fin cfg0.N) : Vec Ideal S2048x128 .f32 := iblk m c 1 t
abbrev blkWaLo (c : Dev nD) (t : Fin cfg0.N) : Vec Ideal S128x128 .bf16 := iblk m c 2 t
abbrev blkWaHi (c : Dev nD) (t : Fin cfg0.N) : Vec Ideal S128x128 .bf16 := iblk m c 3 t
abbrev blkWgLo (c : Dev nD) (t : Fin cfg0.N) : Vec Ideal S128x128 .bf16 := iblk m c 4 t
abbrev blkWgHi (c : Dev nD) (t : Fin cfg0.N) : Vec Ideal S128x128 .bf16 := iblk m c 5 t
abbrev blkBa (c : Dev nD) (t : Fin cfg0.N) : Vec Ideal S1x128 .f32 := iblk m c 6 t
abbrev blkBg (c : Dev nD) (t : Fin cfg0.N) : Vec Ideal S1x128 .f32 := iblk m c 7 t
abbrev blkGamma (c : Dev nD) (t : Fin cfg0.N) : Vec Ideal S1x128 .f32 := iblk m c 8 t
abbrev blkBeta (c : Dev nD) (t : Fin cfg0.N) : Vec Ideal S1x128 .f32 := iblk m c 9 t

theorem blkX_apply (c : Dev nD) (t : Fin cfg0.N) (p : Fin 2048) (k : Fin 128) :
    blkX m c t (ix2 p k) = argX m c (ix2 (rowOf t p) k) := by
  show V m c main_arg0 (((cfg0.win 0).blk t).view.emb (ix2 p k)) = _
  rw [V_main_arg0]
  refine congrArg (m ((c : Thread nD τ).loc main_arg0)) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_0.index t (0 : Fin 2) * 2048 + 1 * p.val = t.val * 2048 + p.val; omega
  | ⟨1, _⟩ => show win0_0.index t (1 : Fin 2) * 128 + 1 * k.val = k.val; omega

theorem blkH_apply (c : Dev nD) (t : Fin cfg0.N) (p : Fin 2048) (k : Fin 128) :
    blkH m c t (ix2 p k) = argH m c (ix2 (rowOf t p) k) := by
  show V m c main_arg1 (((cfg0.win 1).blk t).view.emb (ix2 p k)) = _
  rw [V_main_arg1]
  refine congrArg (m ((c : Thread nD τ).loc main_arg1)) (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_1.index t (0 : Fin 2) * 2048 + 1 * p.val = t.val * 2048 + p.val; omega
  | ⟨1, _⟩ => show win0_1.index t (1 : Fin 2) * 128 + 1 * k.val = k.val; omega

theorem blkWaLo_apply (c : Dev nD) (t : Fin cfg0.N) (j k : Fin 128) : blkWaLo m c t (ix2 j k) = lo (argWa m c) j k := by
  show V m c main_v1 (((cfg0.win 2).blk t).view.emb (ix2 j k)) = _
  have hemb : ((cfg0.win 2).blk t).view.emb (ix2 j k) = ix2 j k := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
    match a with
    | ⟨0, _⟩ => show win0_2.index t (0 : Fin 2) * 128 + 1 * j.val = j.val; omega
    | ⟨1, _⟩ => show win0_2.index t (1 : Fin 2) * 128 + 1 * k.val = k.val; omega)
  rw [hemb]
  exact main_v1_apply m c j k

theorem blkWaHi_apply (c : Dev nD) (t : Fin cfg0.N) (j k : Fin 128) : blkWaHi m c t (ix2 j k) = hi (argWa m c) j k := by
  show V m c main_v3 (((cfg0.win 3).blk t).view.emb (ix2 j k)) = _
  have hemb : ((cfg0.win 3).blk t).view.emb (ix2 j k) = ix2 j k := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
    match a with
    | ⟨0, _⟩ => show win0_3.index t (0 : Fin 2) * 128 + 1 * j.val = j.val; omega
    | ⟨1, _⟩ => show win0_3.index t (1 : Fin 2) * 128 + 1 * k.val = k.val; omega)
  rw [hemb]
  exact main_v3_apply m c j k

theorem blkWgLo_apply (c : Dev nD) (t : Fin cfg0.N) (j k : Fin 128) : blkWgLo m c t (ix2 j k) = lo (argWg m c) j k := by
  show V m c main_v5 (((cfg0.win 4).blk t).view.emb (ix2 j k)) = _
  have hemb : ((cfg0.win 4).blk t).view.emb (ix2 j k) = ix2 j k := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
    match a with
    | ⟨0, _⟩ => show win0_4.index t (0 : Fin 2) * 128 + 1 * j.val = j.val; omega
    | ⟨1, _⟩ => show win0_4.index t (1 : Fin 2) * 128 + 1 * k.val = k.val; omega)
  rw [hemb]
  exact main_v5_apply m c j k

theorem blkWgHi_apply (c : Dev nD) (t : Fin cfg0.N) (j k : Fin 128) : blkWgHi m c t (ix2 j k) = hi (argWg m c) j k := by
  show V m c main_v7 (((cfg0.win 5).blk t).view.emb (ix2 j k)) = _
  have hemb : ((cfg0.win 5).blk t).view.emb (ix2 j k) = ix2 j k := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
    match a with
    | ⟨0, _⟩ => show win0_5.index t (0 : Fin 2) * 128 + 1 * j.val = j.val; omega
    | ⟨1, _⟩ => show win0_5.index t (1 : Fin 2) * 128 + 1 * k.val = k.val; omega)
  rw [hemb]
  exact main_v7_apply m c j k

theorem blkBa_apply (c : Dev nD) (t : Fin cfg0.N) (j : Fin 128) : blkBa m c t (ix2 (0 : Fin 1) j) = argBa m c (ix1 j) := by
  show V m c main_v8 (((cfg0.win 6).blk t).view.emb (ix2 (0 : Fin 1) j)) = _
  have hemb : ((cfg0.win 6).blk t).view.emb (ix2 (0 : Fin 1) j) = ix2 (0 : Fin 1) j := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
    match a with
    | ⟨0, _⟩ => show win0_6.index t (0 : Fin 2) * 1 + 1 * 0 = 0; omega
    | ⟨1, _⟩ => show win0_6.index t (1 : Fin 2) * 128 + 1 * j.val = j.val; omega)
  rw [hemb]
  exact main_v8_apply m c j

theorem blkBg_apply (c : Dev nD) (t : Fin cfg0.N) (j : Fin 128) : blkBg m c t (ix2 (0 : Fin 1) j) = argBg m c (ix1 j) := by
  show V m c main_v9 (((cfg0.win 7).blk t).view.emb (ix2 (0 : Fin 1) j)) = _
  have hemb : ((cfg0.win 7).blk t).view.emb (ix2 (0 : Fin 1) j) = ix2 (0 : Fin 1) j := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
    match a with
    | ⟨0, _⟩ => show win0_7.index t (0 : Fin 2) * 1 + 1 * 0 = 0; omega
    | ⟨1, _⟩ => show win0_7.index t (1 : Fin 2) * 128 + 1 * j.val = j.val; omega)
  rw [hemb]
  exact main_v9_apply m c j

theorem blkGamma_apply (c : Dev nD) (t : Fin cfg0.N) (j : Fin 128) : blkGamma m c t (ix2 (0 : Fin 1) j) = argGamma m c (ix1 j) := by
  show V m c main_v10 (((cfg0.win 8).blk t).view.emb (ix2 (0 : Fin 1) j)) = _
  have hemb : ((cfg0.win 8).blk t).view.emb (ix2 (0 : Fin 1) j) = ix2 (0 : Fin 1) j := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
    match a with
    | ⟨0, _⟩ => show win0_8.index t (0 : Fin 2) * 1 + 1 * 0 = 0; omega
    | ⟨1, _⟩ => show win0_8.index t (1 : Fin 2) * 128 + 1 * j.val = j.val; omega)
  rw [hemb]
  exact main_v10_apply m c j

theorem blkBeta_apply (c : Dev nD) (t : Fin cfg0.N) (j : Fin 128) : blkBeta m c t (ix2 (0 : Fin 1) j) = argBeta m c (ix1 j) := by
  show V m c main_v11 (((cfg0.win 9).blk t).view.emb (ix2 (0 : Fin 1) j)) = _
  have hemb : ((cfg0.win 9).blk t).view.emb (ix2 (0 : Fin 1) j) = ix2 (0 : Fin 1) j := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
    match a with
    | ⟨0, _⟩ => show win0_9.index t (0 : Fin 2) * 1 + 1 * 0 = 0; omega
    | ⟨1, _⟩ => show win0_9.index t (1 : Fin 2) * 128 + 1 * j.val = j.val; omega)
  rw [hemb]
  exact main_v11_apply m c j

/-! ## What a point writes back, the cover, and the array -/

/-- What point `t` writes back is block `t` of the result function. -/
theorem flushed_eq (c : Dev nD) (t : Fin cfg0.N) :
    (dats m 0 c).flushed 10 t = ((cfg0.win 10).blk t).view.read (Elt Ideal) (result m c) := by
  rw [Cert.KernelIdeal.Value.flushed10]
  funext y
  obtain ⟨p, q, rfl⟩ : ∃ (p : Fin 2048) (q : Fin 128), y = ix2 p q := ⟨y 0, y 1, eq_ix2 y⟩
  show out0_10 (blkX m c t) (blkH m c t) (blkWaLo m c t) (blkWaHi m c t) (blkWgLo m c t) (blkWgHi m c t) (blkBa m c t)
      (blkBg m c t) (blkGamma m c t) (blkBeta m c t) (ix2 p q)
    = result m c (((cfg0.win 10).blk t).view.emb (ix2 p q))
  have hemb : ((cfg0.win 10).blk t).view.emb (ix2 p q) = ix2 (rowOf t p) q := funext fun a => Fin.ext (by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
    match a with
    | ⟨0, _⟩ => show win0_10.index t (0 : Fin 2) * 2048 + 1 * p.val = t.val * 2048 + p.val; omega
    | ⟨1, _⟩ => show win0_10.index t (1 : Fin 2) * 128 + 1 * q.val = q.val; omega)
  rw [hemb]
  refine (Cert.KernelIdeal.RowValue.out_apply _ _ _ _ _ _ _ _ _ _ p q).trans ?_
  simp only [blkX_apply, blkH_apply, blkWaLo_apply, blkWaHi_apply, blkWgLo_apply, blkWgHi_apply, blkBa_apply, blkBg_apply,
    blkGamma_apply, blkBeta_apply]
  rfl

/-- An index of the array is in point `t`'s block iff each coordinate is in the block's range on its axis. -/
theorem mem_blk (t : Fin cfg0.N) (i : S524288x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_v12).slice (win0_10.rect t)).set ↔ _
  rw [View.set_slice_whole, Rect.mem_set_unit]
  exact Iff.rfl

/-- Row `r` of the array lies in the block of point `r / 2048`, and every point writes back. -/
theorem cover (i : S524288x128.Idx) :
    ∃ t : Fin cfg0.N, (cfg0.win 10).flush t = true ∧ i ∈ ((cfg0.win 10).blk t).view.set := by
  have hi0 : (i 0).val < 524288 := (i 0).isLt
  have hi1 : (i 1).val < 128 := (i 1).isLt
  have hN : cfg0.N = 256 := N_0
  have hlt : (i 0).val / 2048 < cfg0.N := by rw [hN]; omega
  refine ⟨⟨(i 0).val / 2048, hlt⟩, flush0_10 _, ?_⟩
  rw [mem_blk]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts ⟨(i 0).val / 2048, hlt⟩
  have e10 : win0_10.index ⟨(i 0).val / 2048, hlt⟩ (0 : Fin 2) = (i 0).val / 2048 := e10_0
  intro a
  match a with
  | ⟨0, _⟩ =>
    show win0_10.index ⟨(i 0).val / 2048, hlt⟩ (0 : Fin 2) * 2048 ≤ (i 0).val
      ∧ (i 0).val < win0_10.index ⟨(i 0).val / 2048, hlt⟩ (0 : Fin 2) * 2048 + 2048
    omega
  | ⟨1, _⟩ =>
    show win0_10.index ⟨(i 0).val / 2048, hlt⟩ (1 : Fin 2) * 128 ≤ (i 1).val
      ∧ (i 1).val < win0_10.index ⟨(i 0).val / 2048, hlt⟩ (1 : Fin 2) * 128 + 128
    omega

/-- The result array after the run is `G` of the arguments. -/
theorem final (c : Dev nD) : (dats m 0 c).arrAt 10 cfg0.N = result m c :=
  (dats m 0 c).arrAt_eq_of_cover 10 (result m c) (fun t _ => flushed_eq m c t) cover

/-- The run: the result at `G` of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference's result, stage by stage, is the row function `Cert.Spec.G` of the argument arrays.

  The reference concatenates `[h | x]` along the features and contracts all 256 entries of a row with a row of each
  weight: by `Cert.Spec.affine_eq_concat` that is the contraction split at `k = 128`. It spells the logistic function
  with a negation, an exponential, a sum and a quotient (`Cert.Spec.logistic_spelled`). The rest — the mix, the two
  row means, the reciprocal square root, the scale and the shift — is `Cert.Spec.rowOut` read operation by operation,
  each keepdims mean a sum over the row's 128 entries started from the literal zero.
-/
import proofs.«173921_j16801912062282_1_alg».proof.Proof.Gen.ReferenceIdeal.Read
import proofs.«173921_j16801912062282_1_alg».proof.Proof.Spec

noncomputable section

namespace Cert.ReferenceIdeal.RefValue

open Cert.ReferenceIdeal Cert.ReferenceIdeal.Read Idealize.ShloMosaic Idealize.ShloMosaic.ValueIdx Cert.Spec

variable (x h : (⟨S524288x128, .f32⟩ : BufTy).Contents (Elt Ideal))
variable (Wa Wg : (⟨S128x256, .f32⟩ : BufTy).Contents (Elt Ideal))
variable (ba bg γ β : (⟨S128, .f32⟩ : BufTy).Contents (Elt Ideal))

/-! ## Where each stage reads its operand, at an index given by coordinates -/

theorem lidx1 (r : Fin 524288) (j : Fin 128) (k : Fin 256) : lidx_main_v1 (ix2 r j) k = ix2 r k :=
  funext fun a => match a with | ⟨0, _⟩ => rfl | ⟨1, _⟩ => rfl
theorem ridx1 (r : Fin 524288) (j : Fin 128) (k : Fin 256) : ridx_main_v1 (ix2 r j) k = ix2 j k :=
  funext fun a => match a with | ⟨0, _⟩ => rfl | ⟨1, _⟩ => rfl
theorem lidx11 (r : Fin 524288) (j : Fin 128) (k : Fin 256) : lidx_main_v11 (ix2 r j) k = ix2 r k :=
  funext fun a => match a with | ⟨0, _⟩ => rfl | ⟨1, _⟩ => rfl
theorem ridx11 (r : Fin 524288) (j : Fin 128) (k : Fin 256) : ridx_main_v11 (ix2 r j) k = ix2 j k :=
  funext fun a => match a with | ⟨0, _⟩ => rfl | ⟨1, _⟩ => rfl
theorem idx3 (r : Fin 524288) (j : Fin 128) : idx_main_v2 (idx_main_v3 (ix2 r j)) = ix1 j :=
  funext fun a => match a with | ⟨0, _⟩ => rfl
theorem idx13 (r : Fin 524288) (j : Fin 128) : idx_main_v12 (idx_main_v13 (ix2 r j)) = ix1 j :=
  funext fun a => match a with | ⟨0, _⟩ => rfl
theorem idx40 (r : Fin 524288) (j : Fin 128) : idx_main_v39 (idx_main_v40 (ix2 r j)) = ix1 j :=
  funext fun a => match a with | ⟨0, _⟩ => rfl
theorem idx43 (r : Fin 524288) (j : Fin 128) : idx_main_v42 (idx_main_v43 (ix2 r j)) = ix1 j :=
  funext fun a => match a with | ⟨0, _⟩ => rfl
theorem idx21 (r : Fin 524288) (u : Fin 1) (k : Fin 128) : idx_main_v21 (idx_main_v22 (ix2 r u)) k = ix2 r k :=
  funext fun a => match a with | ⟨0, _⟩ => rfl | ⟨1, _⟩ => rfl
theorem idx28 (r : Fin 524288) (u : Fin 1) (k : Fin 128) : idx_main_v28 (idx_main_v29 (ix2 r u)) k = ix2 r k :=
  funext fun a => match a with | ⟨0, _⟩ => rfl | ⟨1, _⟩ => rfl
theorem idx25 (r : Fin 524288) (j : Fin 128) : idx_main_v25 (ix2 r j) = ix2 r (0 : Fin 1) :=
  funext fun a => match a with | ⟨0, _⟩ => rfl | ⟨1, _⟩ => rfl
theorem idx32 (r : Fin 524288) (j : Fin 128) : idx_main_v32 (ix2 r j) = ix2 r (0 : Fin 1) :=
  funext fun a => match a with | ⟨0, _⟩ => rfl | ⟨1, _⟩ => rfl
theorem idx37 (r : Fin 524288) (j : Fin 128) : idx_main_v37 (ix2 r j) = ix2 r (0 : Fin 1) :=
  funext fun a => match a with | ⟨0, _⟩ => rfl | ⟨1, _⟩ => rfl

/-! ## The two pre-activations -/

/-- The concatenation `[h | x]` along the features, at row `r` and column `k`. -/
theorem concat_apply (r : Fin 524288) (k : Fin (128 + 128)) :
    val_main_v0 (F := Ideal) x h (ix2 r k) = concatRow (fun a => x (ix2 r a)) (fun a => h (ix2 r a)) k := by
  unfold val_main_v0 concatRow
  refine Fin.addCases (fun a => ?_) (fun a => ?_) k
  · rw [Fin.addCases_left]
    exact concatenate_pair_apply_left (t := S524288x256) (s₁ := S524288x128) (s₂ := S524288x128) (1 : Fin 2) h x
      _ (ix2 r (Fin.castAdd 128 a)) rfl (ix2 r a)
      (fun b => match b with | ⟨0, _⟩ => rfl | ⟨1, _⟩ => rfl)
  · rw [Fin.addCases_right]
    exact concatenate_pair_apply_right (t := S524288x256) (s₁ := S524288x128) (s₂ := S524288x128) (1 : Fin 2) h x
      _ (ix2 r (Fin.natAdd 128 a)) rfl rfl (ix2 r a)
      (fun b hb => match b, hb with | ⟨0, _⟩, _ => rfl | ⟨1, _⟩, hb => absurd rfl hb)
      (by show a.val + 128 = 128 + a.val; omega)

theorem pre_a (r : Fin 524288) (j : Fin 128) :
    val_main_v14 (F := Ideal) x h Wa ba (ix2 r j)
      = affineRow (fun k => x (ix2 r k)) (fun k => h (ix2 r k)) (lo Wa j) (hi Wa j) (ba (ix1 j)) := by
  rw [val_main_v14_apply, val_main_v11_apply, val_main_v13_apply, val_main_v12_apply, idx13, ← affine_eq_concat]
  refine congrArg (· + ba (ix1 j)) (Finset.sum_congr rfl fun k _ => ?_)
  rw [lidx11, ridx11]
  exact congrArg (· * Wa (ix2 j k)) (concat_apply x h r k)

theorem pre_g (r : Fin 524288) (j : Fin 128) :
    val_main_v4 (F := Ideal) x h Wg bg (ix2 r j)
      = affineRow (fun k => x (ix2 r k)) (fun k => h (ix2 r k)) (lo Wg j) (hi Wg j) (bg (ix1 j)) := by
  rw [val_main_v4_apply, val_main_v1_apply, val_main_v3_apply, val_main_v2_apply, idx3, ← affine_eq_concat]
  refine congrArg (· + bg (ix1 j)) (Finset.sum_congr rfl fun k _ => ?_)
  rw [lidx1, ridx1]
  exact congrArg (· * Wg (ix2 j k)) (concat_apply x h r k)

/-! ## The gate and the mixed row -/

theorem gate_g (r : Fin 524288) (j : Fin 128) :
    val_main_v10 (F := Ideal) x h Wg bg (ix2 r j)
      = Ideal.logistic (affineRow (fun k => x (ix2 r k)) (fun k => h (ix2 r k)) (lo Wg j) (hi Wg j) (bg (ix1 j))) := by
  rw [val_main_v10_apply, val_main_v9_apply, val_main_cst_0_apply, val_main_v8_apply, val_main_v7_apply,
    val_main_cst_apply, val_main_v6_apply, val_main_v5_apply, pre_g]
  exact logistic_spelled _

/-- The row of `x`, of `h`, and the biases as functions of the feature. -/
abbrev xrow (r : Fin 524288) : Fin 128 → EReal := fun k => x (ix2 r k)
abbrev hrow (r : Fin 524288) : Fin 128 → EReal := fun k => h (ix2 r k)
abbrev vec (b : (⟨S128, .f32⟩ : BufTy).Contents (Elt Ideal)) : Fin 128 → EReal := fun j => b (ix1 j)

theorem mixed (r : Fin 524288) (j : Fin 128) :
    val_main_v20 (F := Ideal) x h Wa Wg ba bg (ix2 r j)
      = mixedRow (xrow x r) (hrow h r) (lo Wa) (hi Wa) (lo Wg) (hi Wg) (vec ba) (vec bg) j := by
  rw [val_main_v20_apply, val_main_v16_apply, val_main_v19_apply, val_main_v18_apply, val_main_v17_apply,
    val_main_cst_1_apply, val_main_v15_apply, gate_g, pre_a]
  rfl

/-! ## The normalization -/

theorem mean_eq (r : Fin 524288) (u : Fin 1) :
    val_main_v24 (F := Ideal) x h Wa Wg ba bg (ix2 r u)
      = mean (mixedRow (xrow x r) (hrow h r) (lo Wa) (hi Wa) (lo Wg) (hi Wg) (vec ba) (vec bg)) := by
  rw [val_main_v24_apply, val_main_v22_apply, val_main_v23_apply, val_main_cst_3_apply, val_main_v21_apply,
    val_main_cst_2_apply]
  simp only [idx21, mixed]
  show Ideal.div (Ideal.ofBits .f32 0x00000000#32 + _) _ = _
  rw [Ideal.ofBits_zero_f32, zero_add]
  rfl

theorem centred_eq (r : Fin 524288) (j : Fin 128) :
    val_main_v26 (F := Ideal) x h Wa Wg ba bg (ix2 r j)
      = centred (mixedRow (xrow x r) (hrow h r) (lo Wa) (hi Wa) (lo Wg) (hi Wg) (vec ba) (vec bg)) j := by
  rw [val_main_v26_apply, val_main_v25_apply, idx25, mean_eq, mixed]
  rfl

theorem centred_eq' (r : Fin 524288) (j : Fin 128) :
    val_main_v33 (F := Ideal) x h Wa Wg ba bg (ix2 r j)
      = centred (mixedRow (xrow x r) (hrow h r) (lo Wa) (hi Wa) (lo Wg) (hi Wg) (vec ba) (vec bg)) j := by
  rw [val_main_v33_apply, val_main_v32_apply, idx32, mean_eq, mixed]
  rfl

theorem meanSq_eq (r : Fin 524288) (u : Fin 1) :
    val_main_v31 (F := Ideal) x h Wa Wg ba bg (ix2 r u)
      = meanSq (mixedRow (xrow x r) (hrow h r) (lo Wa) (hi Wa) (lo Wg) (hi Wg) (vec ba) (vec bg)) := by
  rw [val_main_v31_apply, val_main_v29_apply, val_main_v30_apply, val_main_cst_5_apply, val_main_v28_apply,
    val_main_cst_4_apply]
  simp only [idx28, val_main_v27_apply, centred_eq]
  show Ideal.div (Ideal.ofBits .f32 0x00000000#32 + _) _ = _
  rw [Ideal.ofBits_zero_f32, zero_add]
  rfl

/-- The reference's result is `G` of the arguments. -/
theorem result_eq :
    val_main_v44 (F := Ideal) x h Wa Wg ba bg γ β = G x h Wa Wg ba bg γ β := by
  funext i
  obtain ⟨r, j, rfl⟩ : ∃ (r : Fin 524288) (j : Fin 128), i = ix2 r j := ⟨i 0, i 1, eq_ix2 i⟩
  rw [val_main_v44_apply, val_main_v43_apply, val_main_v42_apply, idx43, val_main_v41_apply, val_main_v40_apply,
    val_main_v39_apply, idx40, val_main_v38_apply, val_main_v37_apply, idx37, val_main_v36_apply, val_main_v35_apply,
    val_main_v34_apply, val_main_cst_6_apply, meanSq_eq, centred_eq']
  rfl

end Cert.ReferenceIdeal.RefValue

end
-- ==== Proof.lean ====
/-
  Kernel and reference compute one function of their eight arguments on the extended reals.

  The function is `Cert.Spec.G` (Proof/Spec.lean): for each of the 524288 rows, two affine forms of the concatenated
  row `[h | x]` — weights `W_a`, `W_g : [128, 256]`, biases `b_a`, `b_g` —, mixed by
  `σ(z_g) · tanh z_a + (1 - σ(z_g)) · z_a`, then normalized over the 128 features, scaled by `γ` and shifted by `β`.

  The kernel (Proof/KernelRow.lean, Proof/KernelArray.lean) works on blocks of 2048 rows and never concatenates: it
  contracts `h` with the low half of each weight and `x` with the high half and adds the two. The reference
  (Proof/RefValue.lean) concatenates and contracts all 256 entries at once, and spells the logistic function out.
  The two agree because a sum over 256 indices is the sum of its two halves, in any commutative monoid, and
  because `1 / (1 + e^(-t))` is the logistic function at every extended real: no finiteness of the inputs is used,
  and the precondition is never opened. A change of float format is the identity on the extended reals, so the
  kernel's 16-bit operands change nothing.

  The three frames are the generated ones (the reference's is its generated run with the result dropped); the
  idealization rewrote no operation, so there is nothing to preserve.
-/
import proofs.«173921_j16801912062282_1_alg».proof.Defs
import proofs.«173921_j16801912062282_1_alg».proof.Proof.Gen.Kernel
import proofs.«173921_j16801912062282_1_alg».proof.Proof.Gen.Kernel.Skeleton
import proofs.«173921_j16801912062282_1_alg».proof.Proof.Gen.Kernel.Launch
import proofs.«173921_j16801912062282_1_alg».proof.Proof.Gen.Kernel.Points
import proofs.«173921_j16801912062282_1_alg».proof.Proof.Gen.Kernel.Frame
import proofs.«173921_j16801912062282_1_alg».proof.Proof.Gen.KernelIdeal
import proofs.«173921_j16801912062282_1_alg».proof.Proof.Gen.KernelIdeal.Skeleton
import proofs.«173921_j16801912062282_1_alg».proof.Proof.Gen.KernelIdeal.Launch
import proofs.«173921_j16801912062282_1_alg».proof.Proof.Gen.KernelIdeal.Points
import proofs.«173921_j16801912062282_1_alg».proof.Proof.Gen.KernelIdeal.Frame
import proofs.«173921_j16801912062282_1_alg».proof.Proof.Gen.ReferenceIdeal
import proofs.«173921_j16801912062282_1_alg».proof.Proof.Gen.Pre_finite_inputs
import proofs.«173921_j16801912062282_1_alg».proof.Proof.Gen.KernelIdeal.Value
import proofs.«173921_j16801912062282_1_alg».proof.Proof.Gen.ReferenceIdeal.Run
import proofs.«173921_j16801912062282_1_alg».proof.Proof.Gen.ReferenceIdeal.Read
import proofs.«173921_j16801912062282_1_alg».proof.Proof.KernelArray
import proofs.«173921_j16801912062282_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at `G` of their arguments, and the arguments agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
